-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x64x1 : Shape := ⟨3, ![4096, 64, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x64x1 : S_.BroadcastsInDim S4096x64x1 (![] : Fin 0 → Fin S4096x64x1.rank)
  reducesTo_S4096x64x1_S_d0_1_2 : S4096x64x1.ReducesTo [0, 1, 2] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096 .f32) (main_arg6 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg6
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x2048x4096 .f32) (main_arg1 : IVec S4096x4096 32) (main_arg2 : FVec F S4096x64x1 .f32) (main_arg3 : FVec F S4096x64x1 .f32) (main_arg4 : FVec F S4096x4096 .f32) (main_arg5 : FVec F S4096 .f32) (main_arg6 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x64x1 .f32 := Host.absf main_arg2
  let main_cst_0 : FVec F S_ .f32 := constant S_ .f32 0x7F800000#32
  let main_v5 : FVec F S4096x64x1 .f32 := broadcastInDim S4096x64x1 ![] bcast_S_S4096x64x1 main_cst_0
  let main_v6 : IVec S4096x64x1 1 := cmpf .olt main_v4 main_v5
  let main_c_1 : IVec S_ 1 := constantI S_ 1 1#1
  let main_v7 : IVec S_ 1 := (fun x v => Host.reduce IntOp.andi x v reducesTo_S4096x64x1_S_d0_1_2 h_S_) main_v6 main_c_1
  let main_v8 : IVec S_ 1 := andi main_v3 main_v7
  let main_v9 : FVec F S4096x64x1 .f32 := Host.absf main_arg3
  let main_cst_2 : FVec F S_ .f32 := constant S_ .f32 0x7F800000#32
  let main_v10 : FVec F S4096x64x1 .f32 := broadcastInDim S4096x64x1 ![] bcast_S_S4096x64x1 main_cst_2
  let main_v11 : IVec S4096x64x1 1 := cmpf .olt main_v9 main_v10
  let main_c_3 : IVec S_ 1 := constantI S_ 1 1#1
  let main_v12 : IVec S_ 1 := (fun x v => Host.reduce IntOp.andi x v reducesTo_S4096x64x1_S_d0_1_2 h_S_) main_v11 main_c_3
  let main_v13 : IVec S_ 1 := andi main_v8 main_v12
  let main_v14 : FVec F S4096x4096 .f32 := Host.absf main_arg4
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg5 main_arg6 main_v13 main_v16
-- ==== Kernel.lean ====
abbrev S4x2048x4096 : Shape := ⟨3, ![4, 2048, 4096]⟩
abbrev S4096x4096 : Shape := ⟨2, ![4096, 4096]⟩
abbrev S4096x64x1 : Shape := ⟨3, ![4096, 64, 1]⟩
abbrev S4096 : Shape := ⟨1, ![4096]⟩
abbrev S4096x64 : Shape := ⟨2, ![4096, 64]⟩
abbrev S1x4096 : Shape := ⟨2, ![1, 4096]⟩
abbrev S4096x1 : Shape := ⟨2, ![4096, 1]⟩
abbrev S_ : Shape := ⟨0, ![]⟩
abbrev S64x1 : Shape := ⟨2, ![64, 1]⟩
abbrev S64x4096 : Shape := ⟨2, ![64, 4096]⟩
abbrev S256x4096 : Shape := ⟨2, ![256, 4096]⟩
abbrev S256x64 : Shape := ⟨2, ![256, 64]⟩
abbrev S256x1 : Shape := ⟨2, ![256, 1]⟩
abbrev S8192x4096 : Shape := ⟨2, ![8192, 4096]⟩
abbrev S128x4096 : Shape := ⟨2, ![128, 4096]⟩

abbrev nBuf : Space → Nat
  | .hbm => 40
  | .vmem => 19
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x64x1, .f32⟩
  | .hbm, ⟨3, _⟩ => ⟨S4096x64x1, .f32⟩
  | .hbm, ⟨4, _⟩ => ⟨S4096x4096, .f32⟩
  | .hbm, ⟨5, _⟩ => ⟨S4096, .f32⟩
  | .hbm, ⟨6, _⟩ => ⟨S4096, .f32⟩
  | .hbm, ⟨7, _⟩ => ⟨S4096x64, .f32⟩
  | .hbm, ⟨8, _⟩ => ⟨S4096x64, .f32⟩
  | .hbm, ⟨9, _⟩ => ⟨S1x4096, .f32⟩
  | .hbm, ⟨10, _⟩ => ⟨S4096x1, .f32⟩
  | .hbm, ⟨11, _⟩ => ⟨S4096, .i32⟩
  | .hbm, ⟨12, _⟩ => ⟨S_, .i32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S1x4096, .i32⟩
  | .hbm, ⟨31, _⟩ => ⟨S64x1, .i32⟩
  | .hbm, ⟨32, _⟩ => ⟨S64x4096, .i32⟩
  | .hbm, ⟨33, _⟩ => ⟨S64x4096, .i32⟩
  | .hbm, ⟨34, _⟩ => ⟨S64x4096, .i1⟩
  | .hbm, ⟨35, _⟩ => ⟨S64x4096, .f32⟩
  | .hbm, ⟨36, _⟩ => ⟨S4096x4096, .bf16⟩
  | .hbm, ⟨37, _⟩ => ⟨S8192x4096, .f32⟩
  | .hbm, ⟨38, _⟩ => ⟨S8192x4096, .f32⟩
  | .hbm, ⟨39, _⟩ => ⟨S4x2048x4096, .f32⟩
  | .local _ .vmem, ⟨0, _⟩ => ⟨S256x4096, .i32⟩
  | .local _ .vmem, ⟨1, _⟩ => ⟨S256x4096, .i32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x4096, .f32⟩
  | .local _ .vmem, ⟨7, _⟩ => ⟨S256x4096, .f32⟩
  | .local _ .vmem, ⟨8, _⟩ => ⟨S1x4096, .f32⟩
  | .local _ .vmem, ⟨9, _⟩ => ⟨S256x1, .f32⟩
  | .local _ .vmem, ⟨10, _⟩ => ⟨S256x1, .f32⟩
  | .local _ .vmem, ⟨11, _⟩ => ⟨S64x4096, .f32⟩
  | .local _ .vmem, ⟨12, _⟩ => ⟨S256x4096, .bf16⟩
  | .local _ .vmem, ⟨13, _⟩ => ⟨S256x4096, .bf16⟩
  | .local _ .vmem, ⟨14, _⟩ => ⟨S128x4096, .f32⟩
  | .local _ .vmem, ⟨15, _⟩ => ⟨S128x4096, .f32⟩
  | .local _ .vmem, ⟨16, _⟩ => ⟨S4096x4096, .bf16⟩
  | .local _ .vmem, ⟨17, _⟩ => ⟨S128x4096, .f32⟩
  | .local _ .vmem, ⟨18, _⟩ => ⟨S128x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S4096x64x1_S4096x64 : S4096x64x1.ShapeCasts S4096x64
  shapeCasts_S4096_S1x4096 : S4096.ShapeCasts S1x4096
  shapeCasts_S4096_S4096x1 : S4096.ShapeCasts S4096x1
  bcast_S_S4096 : S_.BroadcastsInDim S4096 (![] : Fin 0 → Fin S4096.rank)
  bcast_S64x1_S64x4096_0_1 : S64x1.BroadcastsInDim S64x4096 (![0, 1] : Fin 2 → Fin S64x4096.rank)
  bcast_S1x4096_S64x4096_0_1 : S1x4096.BroadcastsInDim S64x4096 (![0, 1] : Fin 2 → Fin S64x4096.rank)
  inb_S256x4096_S256x4096_0_0 : ∀ a, (![0, 0] : Fin 2 → Nat) a + S256x4096.size a ≤ S256x4096.size a
  h_S256x4096 : 0 < S256x4096.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  broadcasts_S1x4096_S256x4096 : S1x4096.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  shapeCasts_S8192x4096_S4x2048x4096 : S8192x4096.ShapeCasts S4x2048x4096
  dot_S256x64_S64x4096_S256x4096_1_0_0_1_n_n_wf : DotDims.WF S256x64 S64x4096 S256x4096 [1] [0] [0] [1] [] []
  dot_S128x4096_S4096x4096_S128x4096_1_1_0_0_n_n_wf : DotDims.WF S128x4096 S4096x4096 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .i32 = 32 ∨ (Rect.block (s := S4096x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S4096x64.size a
  hwx0_1 : ∀ i : grid0.Coords, EltTy.bits .f32 = 32 ∨ (Rect.block (s := S4096x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S4096x64.size a
  hwx0_2 : ∀ i : grid0.Coords, EltTy.bits .f32 = 32 ∨ (Rect.block (s := S4096x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S4096x1.size a
  hwx0_5 : ∀ i : grid0.Coords, EltTy.bits .f32 = 32 ∨ (Rect.block (s := S4096x1) S256x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x4096.size a ≤ S64x4096.size a
  hwx0_6 : ∀ i : grid0.Coords, EltTy.bits .f32 = 32 ∨ (Rect.block (s := S64x4096) S64x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x4096.size a ≤ S4096x4096.size a
  hwx0_7 : ∀ i : grid0.Coords, EltTy.bits .bf16 = 32 ∨ (Rect.block (s := S4096x4096) S256x4096.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S8192x4096.size a
  hwx1_0 : ∀ i : grid1.Coords, EltTy.bits .f32 = 32 ∨ (Rect.block (s := S8192x4096) S128x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x4096.size a ≤ S8192x4096.size a
  hwx1_2 : ∀ i : grid1.Coords, EltTy.bits .f32 = 32 ∨ (Rect.block (s := S8192x4096) S128x4096.size (cc1_transform_2 i) (hinb1_2 i)).WholeWords (EltTy.packing .f32)

variable [Facts₀]

def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S128x4096_S4096x4096_S128x4096_1_1_0_0_n_n : DotDims S128x4096 S4096x4096 S128x4096 where
  lhsContracting := [1]
  rhsContracting := [1]
  lhsNonContracting := [0]
  rhsNonContracting := [0]
  lhsBatch := []
  rhsBatch := []
  wf := dot_S128x4096_S4096x4096_S128x4096_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S64x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S256x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v13) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S128x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x64x1 : Shape := ⟨3, ![4096, 64, 1]⟩
abbrev S4096 : Shape := ⟨1, ![4096]⟩
abbrev S4096x64x64 : Shape := ⟨3, ![4096, 64, 64]⟩
abbrev S4096x1 : Shape := ⟨2, ![4096, 1]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x64x1, .f32⟩
  | .hbm, ⟨3, _⟩ => ⟨S4096x64x1, .f32⟩
  | .hbm, ⟨4, _⟩ => ⟨S4096x4096, .f32⟩
  | .hbm, ⟨5, _⟩ => ⟨S4096, .f32⟩
  | .hbm, ⟨6, _⟩ => ⟨S4096, .f32⟩
  | .hbm, ⟨7, _⟩ => ⟨S4096x4096, .f32⟩
  | .hbm, ⟨8, _⟩ => ⟨S4096x64x64, .f32⟩
  | .hbm, ⟨9, _⟩ => ⟨S4096x64x64, .f32⟩
  | .hbm, ⟨10, _⟩ => ⟨S4096x64x64, .f32⟩
  | .hbm, ⟨11, _⟩ => ⟨S4096x64x64, .f32⟩
  | .hbm, ⟨12, _⟩ => ⟨S4096x64x64, .f32⟩
  | .hbm, ⟨13, _⟩ => ⟨S4096x4096, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S1x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  shapeCasts_S4096x4096_S4096x64x64 : S4096x4096.ShapeCasts S4096x64x64
  bcast_S4096x64x1_S4096x64x64_0_1_2 : S4096x64x1.BroadcastsInDim S4096x64x64 (![0, 1, 2] : Fin 3 → Fin S4096x64x64.rank)
  shapeCasts_S4096x64x64_S4096x4096 : S4096x64x64.ShapeCasts S4096x4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  What both programs compute, as one function of the seven argument arrays, on the extended reals.

  A weight matrix is stored as integer codes `q[k, n]` with one scale `s[k, g]` and one zero point `z[k, g]` per
  group `g` of 64 consecutive columns.  The dequantised entry is `(q[k, n] - z[k, n / 64]) * s[k, n / 64]`; it is then
  multiplied by a row factor `mu2[k]`, a column factor `mu1[n]` and a 0/1 mask entry `mask[k, n]`, in that order.
  The result of the layer is the product of the activations with the transpose of that matrix:
  `out[b, s, k] = ∑ n, x[b, s, n] * weight[k, n]`.
-/
import Idealize.ShloMosaic.PureOps.Ideal
import Idealize.ShloMosaic.Lib.ValueIdx

noncomputable section

namespace Cert.QuantLinear

open Idealize.ShloMosaic Idealize.ShloMosaic.ValueIdx

/-- The group of 64 consecutive columns that column `n` lies in. -/
def grp (n : Fin 4096) : Fin 64 := ⟨n.val / 64, by have := n.isLt; omega⟩

theorem grp_val (n : Fin 4096) : (grp n).val = n.val / 64 := rfl

/-- The dequantised weight at row `k`, column `n`, with its row factor, column factor and mask applied, in the order
    both programs multiply them. -/
def weight (q : (⟨2, ![4096, 4096]⟩ : Shape).Idx → BitVec 32) (s z : (⟨3, ![4096, 64, 1]⟩ : Shape).Idx → EReal)
    (mask : (⟨2, ![4096, 4096]⟩ : Shape).Idx → EReal) (mu1 mu2 : (⟨1, ![4096]⟩ : Shape).Idx → EReal)
    (k n : Fin 4096) : EReal :=
  ((((FloatOps.sitofp (F := Ideal) .f32 (q (ix2 k n)) - z (ix3 k (grp n) (0 : Fin 1))) * s (ix3 k (grp n) (0 : Fin 1)))
      * mu2 (ix1 k)) * mu1 (ix1 n)) * mask (ix2 k n)

/-- The layer's result: each activation row against each weight row, summed over the 4096 columns. -/
def linear (x : (⟨3, ![4, 2048, 4096]⟩ : Shape).Idx → EReal) (W : Fin 4096 → Fin 4096 → EReal) :
    (⟨3, ![4, 2048, 4096]⟩ : Shape).Idx → EReal :=
  fun i => ∑ n : Fin 4096, x (ix3 (i 0) (i 1) n) * W (i 2) n

end Cert.QuantLinear

end
-- ==== Proof.Weights.lean ====
/-
  The first launch: the dequantised weight matrix.  Each grid point `t` of 16 takes rows `256 t … 256 t + 255` of the
  integer codes, the mask, the per-group scales and zero points (256 × 64) and the row factors (256 × 1), and the
  whole column-factor row (1 × 4096) and expansion matrix `e` (64 × 4096).  The body spreads a per-group value over its
  64 columns by a matrix product with `e`: `∑ g, a[p, g] * e[g, n]`.  When `e[g, n]` is `1` for the group `g = n / 64`
  of column `n` and `0` for every other group, that sum is the one term `a[p, n / 64]` — on the extended reals too,
  where `x * 0 = 0` and `x * 1 = x` hold for every `x`, the infinities included.  What is stored at `(p, n)` is then
  `((((q - z[p, n/64]) * s[p, n/64]) * mu2[p]) * mu1[n]) * mask[p, n]`, the narrowing to a shorter float format being the
  identity.  The 16 blocks tile the matrix.
-/
import proofs.«419959_j64330020159887_3_alg».proof.Proof.Gen.KernelIdeal.Frame
import proofs.«419959_j64330020159887_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Weights

open Cert.KernelIdeal Cert.KernelIdeal.Gen Cert.QuantLinear
open Idealize.ShloMosaic Idealize.ShloMosaic.TcCoe Idealize.ShloMosaic.ValueIdx Idealize.SL.Sem
open Idealize.ShloMosaic.Pipeline (Dat Cfg Window)

/-! ## A sum against a one-hot column is one term -/

/-- If `e` is `1` at `g₀` and `0` elsewhere, `∑ g, a g * e g = a g₀`: every other term is `a g * 0 = 0`. -/
theorem sum_mul_onehot (a e : Fin 64 → EReal) (g₀ : Fin 64) (he : ∀ g, e g = if g = g₀ then 1 else 0) :
    ∑ g : Fin 64, a g * e g = a g₀ := by
  rw [Finset.sum_congr rfl (fun g _ => by rw [he g, mul_ite, mul_one, mul_zero])]
  rw [Finset.sum_ite_eq' Finset.univ g₀ a, if_pos (Finset.mem_univ _)]

/-! ## The spreading product at an index -/

theorem lhs_0 (i : S256x4096.Idx) (q : dot_S256x64_S64x4096_S256x4096_1_0_0_1_n_n.contr.Idx) :
    (dot_S256x64_S64x4096_S256x4096_1_0_0_1_n_n.lhsIdx i q 0).val = (i 0).val := by
  unfold DotDims.lhsIdx
  rw [dif_neg (show ¬(0 : Fin S256x64.rank) ∈ dot_S256x64_S64x4096_S256x4096_1_0_0_1_n_n.lhsBatch by decide), dif_pos (show (0 : Fin S256x64.rank) ∈ dot_S256x64_S64x4096_S256x4096_1_0_0_1_n_n.lhsNonContracting by decide)]
  rfl
theorem lhs_1 (i : S256x4096.Idx) (q : dot_S256x64_S64x4096_S256x4096_1_0_0_1_n_n.contr.Idx) :
    (dot_S256x64_S64x4096_S256x4096_1_0_0_1_n_n.lhsIdx i q 1).val = (q ⟨0, by decide⟩).val :=
  dot_S256x64_S64x4096_S256x4096_1_0_0_1_n_n.lhsIdx_val_of_single rfl i q
theorem rhs_0 (i : S256x4096.Idx) (q : dot_S256x64_S64x4096_S256x4096_1_0_0_1_n_n.contr.Idx) :
    (dot_S256x64_S64x4096_S256x4096_1_0_0_1_n_n.rhsIdx i q 0).val = (q ⟨0, by decide⟩).val :=
  dot_S256x64_S64x4096_S256x4096_1_0_0_1_n_n.rhsIdx_val_of_single rfl i q
theorem rhs_1 (i : S256x4096.Idx) (q : dot_S256x64_S64x4096_S256x4096_1_0_0_1_n_n.contr.Idx) :
    (dot_S256x64_S64x4096_S256x4096_1_0_0_1_n_n.rhsIdx i q 1).val = (i 1).val := by
  unfold DotDims.rhsIdx
  rw [dif_neg (show ¬(1 : Fin S64x4096.rank) ∈ dot_S256x64_S64x4096_S256x4096_1_0_0_1_n_n.rhsBatch by decide), dif_pos (show (1 : Fin S64x4096.rank) ∈ dot_S256x64_S64x4096_S256x4096_1_0_0_1_n_n.rhsNonContracting by decide)]
  rfl

/-- A 256 × 64 block times the 64 × 4096 expansion matrix, at `(p, n)`: the sum over the 64 groups. -/
theorem spread_apply (a : FVec Ideal S256x64 .f32) (e : FVec Ideal S64x4096 .f32) (p : Fin 256) (n : Fin 4096) :
    matmul dot_S256x64_S64x4096_S256x4096_1_0_0_1_n_n (some .fp32) a e (constant S256x4096 .f32 0x00000000#32) (ix2 p n)
      = ∑ g : Fin 64, a (ix2 p g) * e (ix2 g n) := by
  refine (Ideal.matmul_constant_zero_apply dot_S256x64_S64x4096_S256x4096_1_0_0_1_n_n (some .fp32) a e (ix2 p n)).trans ?_
  rw [← Equiv.sum_comp (contrEquiv1 dot_S256x64_S64x4096_S256x4096_1_0_0_1_n_n 64 rfl rfl).symm]
  refine Finset.sum_congr rfl fun g _ => ?_
  have hk := contrEquiv1_symm_val dot_S256x64_S64x4096_S256x4096_1_0_0_1_n_n 64 rfl rfl g
  have el : dot_S256x64_S64x4096_S256x4096_1_0_0_1_n_n.lhsIdx (ix2 p n) ((contrEquiv1 dot_S256x64_S64x4096_S256x4096_1_0_0_1_n_n 64 rfl rfl).symm g) = ix2 p g := funext fun a => Fin.ext (by
    match a with
    | ⟨0, _⟩ => exact lhs_0 _ _
    | ⟨1, _⟩ => exact (lhs_1 _ _).trans hk)
  have er : dot_S256x64_S64x4096_S256x4096_1_0_0_1_n_n.rhsIdx (ix2 p n) ((contrEquiv1 dot_S256x64_S64x4096_S256x4096_1_0_0_1_n_n 64 rfl rfl).symm g) = ix2 g n := funext fun a => Fin.ext (by
    match a with
    | ⟨0, _⟩ => exact (rhs_0 _ _).trans hk
    | ⟨1, _⟩ => exact rhs_1 _ _)
  rw [el, er]

/-- With `e`'s column `n` one-hot at the group of `n`, the spreading product reads the group's entry. -/
theorem spread_onehot (a : FVec Ideal S256x64 .f32) (e : FVec Ideal S64x4096 .f32) (p : Fin 256) (n : Fin 4096)
    (he : ∀ g : Fin 64, e (ix2 g n) = if g = grp n then 1 else 0) :
    matmul dot_S256x64_S64x4096_S256x4096_1_0_0_1_n_n (some .fp32) a e (constant S256x4096 .f32 0x00000000#32) (ix2 p n)
      = a (ix2 p (grp n)) :=
  (spread_apply a e p n).trans (sum_mul_onehot (fun g => a (ix2 p g)) (fun g => e (ix2 g n)) (grp n) he)

/-! ## The payload at an index -/

/-- A 256 × 1 column broadcast over 4096 columns reads, at `(p, n)`, the column's entry `p`. -/
theorem column_broadcast_apply (v : FVec Ideal S256x1 .f32) (p : Fin 256) (n : Fin 4096) :
    broadcastTo S256x4096 v broadcasts_S256x1_S256x4096 (ix2 p n) = v (ix2 p (0 : Fin 1)) := by
  refine broadcastTo_apply v broadcasts_S256x1_S256x4096 (ix2 p n) (ix2 p (0 : Fin 1)) fun ax => ?_
  match ax with
  | ⟨0, _⟩ => show p.val = if (256 : Nat) = 1 then 0 else p.val; rw [if_neg (by decide)]
  | ⟨1, _⟩ => show 0 = if (1 : Nat) = 1 then 0 else n.val; rw [if_pos rfl]

/-- What the body stores at row `p` of the block and column `n`. -/
theorem pay_apply (q : IVec S256x4096 32) (s z : FVec Ideal S256x64 .f32) (e : FVec Ideal S64x4096 .f32)
    (mask : FVec Ideal S256x4096 .f32) (mu1 : FVec Ideal S1x4096 .f32) (mu2 : FVec Ideal S256x1 .f32)
    (p : Fin 256) (n : Fin 4096) (he : ∀ g : Fin 64, e (ix2 g n) = if g = grp n then 1 else 0) :
    k0_pay1 (F := Ideal) q s z e mask mu1 mu2 (ix2 p n)
      = ((((FloatOps.sitofp (F := Ideal) .f32 (q (ix2 p n)) - z (ix2 p (grp n))) * s (ix2 p (grp n)))
          * mu2 (ix2 p (0 : Fin 1))) * mu1 (ix2 (0 : Fin 1) n)) * mask (ix2 p n) := by
  unfold k0_pay1
  simp only [shapeCast_self]
  show ((((FloatOps.sitofp (F := Ideal) .f32 (q (ix2 p n))
        - matmul dot_S256x64_S64x4096_S256x4096_1_0_0_1_n_n (some .fp32) z e (constant S256x4096 .f32 0x00000000#32) (ix2 p n))
        * matmul dot_S256x64_S64x4096_S256x4096_1_0_0_1_n_n (some .fp32) s e (constant S256x4096 .f32 0x00000000#32) (ix2 p n))
        * broadcastTo S256x4096 mu2 broadcasts_S256x1_S256x4096 (ix2 p n))
        * broadcastTo S256x4096 mu1 broadcasts_S1x4096_S256x4096 (ix2 p n)) * mask (ix2 p n) = _
  rw [spread_onehot z e p n he, spread_onehot s e p n he, column_broadcast_apply, broadcastTo_1b_ab_apply]

/-! ## From blocks to the matrix -/

variable (V : (c : Dev nD) → (b : Ref sig .tc) → Buf (Elt Ideal) ((c : Thread nD τ).loc b))

theorem zero_offsets : (![0, 0] : Fin 2 → Nat) = fun _ => 0 := funext fun a => by fin_cases a <;> rfl

/-- The arrays as the launch finds them, at their literal types. -/
abbrev codes (c : Dev nD) : S4096x4096.Idx → BitVec 32 := V c main_arg1
abbrev scales (c : Dev nD) : S4096x64.Idx → EReal := V c main_v0
abbrev zeroPts (c : Dev nD) : S4096x64.Idx → EReal := V c main_v1
abbrev maskArr (c : Dev nD) : S4096x4096.Idx → EReal := V c main_arg4
abbrev colFactor (c : Dev nD) : S1x4096.Idx → EReal := V c main_v2
abbrev rowFactor (c : Dev nD) : S4096x1.Idx → EReal := V c main_v3
abbrev expand (c : Dev nD) : S64x4096.Idx → EReal := V c main_v11

/-- The dequantised matrix as one function of the six arrays, at row `k` and column `n`. -/
def dequant (q : S4096x4096.Idx → BitVec 32) (s z : S4096x64.Idx → EReal) (mask : S4096x4096.Idx → EReal)
    (mu1 : S1x4096.Idx → EReal) (mu2 : S4096x1.Idx → EReal) (k n : Fin 4096) : EReal :=
  ((((FloatOps.sitofp (F := Ideal) .f32 (q (ix2 k n)) - z (ix2 k (grp n))) * s (ix2 k (grp n)))
      * mu2 (ix2 k (0 : Fin 1))) * mu1 (ix2 (0 : Fin 1) n)) * mask (ix2 k n)

/-- The same as an array. -/
def dequantArr (q : S4096x4096.Idx → BitVec 32) (s z : S4096x64.Idx → EReal) (mask : S4096x4096.Idx → EReal)
    (mu1 : S1x4096.Idx → EReal) (mu2 : S4096x1.Idx → EReal) : S4096x4096.Idx → EReal :=
  fun i => dequant q s z mask mu1 mu2 (i 0) (i 1)

/-- The eight windows' block indices at a grid point: the row-blocked windows move together, the column factor and
    the expansion matrix stay whole. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- What point `t` writes back is block `t` of the dequantised matrix of the arrays the launch found, when the expansion
    matrix it found is one-hot at each column's group. -/
theorem flushed_eq (c : Dev nD) (t : Fin cfg0.N)
    (he : ∀ (g : Fin 64) (n : Fin 4096), expand V c (ix2 g n) = if g = grp n then 1 else 0) :
    (dat0 (F := Ideal) V c).flushed 7 t
      = ((cfg0.win 7).blk t).view.read (Elt Ideal)
          (dequantArr (codes V c) (scales V c) (zeroPts V c) (maskArr V c) (colFactor V c) (rowFactor V c)) := by
  show (cfg0.win 7).cut (grid0.coords t) ((dat0 V c).after 7 t) = _
  rw [after0_7]
  unfold out0_7
  rw [View.canon_unit_zero zero_offsets]
  simp only [View.ld_unit_zero (S := S256x4096) zero_offsets, View.ld_unit_zero (S := S256x64) zero_offsets,
    View.ld_unit_zero (S := S64x4096) zero_offsets, View.ld_unit_zero (S := S1x4096) zero_offsets,
    View.ld_unit_zero (S := S256x1) zero_offsets]
  obtain ⟨a0, a1, b0, b1, c0, c1, d0, d1, f0, f1, g0, g1, k0, k1, o0, o1⟩ := block_indices t
  have hN := N_0
  have ht : t.val < 16 := by have h : t.val < grid0.N := t.isLt; omega
  funext j
  obtain ⟨p, n, rfl⟩ : ∃ (p : Fin 256) (n : Fin 4096), j = ix2 p n := ⟨j 0, j 1, eq_ix2 j⟩
  have hp := p.isLt; have hn := n.isLt
  let r : Fin 4096 := ⟨t.val * 256 + p.val, by omega⟩
  have h7 : ((cfg0.win 7).blk t).view.emb (ix2 p n) = ix2 r n := by
    funext a; apply Fin.ext
    match a with
    | ⟨0, _⟩ => show win0_7.index t (0 : Fin 2) * 256 + 1 * p.val = t.val * 256 + p.val; omega
    | ⟨1, _⟩ => show win0_7.index t (1 : Fin 2) * 4096 + 1 * n.val = n.val; omega
  have h0 : ((cfg0.win 0).blk t).view.emb (ix2 p n) = ix2 r n := by
    funext a; apply Fin.ext
    match a with
    | ⟨0, _⟩ => show win0_0.index t (0 : Fin 2) * 256 + 1 * p.val = t.val * 256 + p.val; omega
    | ⟨1, _⟩ => show win0_0.index t (1 : Fin 2) * 4096 + 1 * n.val = n.val; omega
  have h1 : ∀ g : Fin 64, ((cfg0.win 1).blk t).view.emb (ix2 p g) = ix2 r g := fun g => by
    funext a; apply Fin.ext
    match a with
    | ⟨0, _⟩ => show win0_1.index t (0 : Fin 2) * 256 + 1 * p.val = t.val * 256 + p.val; omega
    | ⟨1, _⟩ => show win0_1.index t (1 : Fin 2) * 64 + 1 * g.val = g.val; omega
  have h2 : ∀ g : Fin 64, ((cfg0.win 2).blk t).view.emb (ix2 p g) = ix2 r g := fun g => by
    funext a; apply Fin.ext
    match a with
    | ⟨0, _⟩ => show win0_2.index t (0 : Fin 2) * 256 + 1 * p.val = t.val * 256 + p.val; omega
    | ⟨1, _⟩ => show win0_2.index t (1 : Fin 2) * 64 + 1 * g.val = g.val; omega
  have h3 : ((cfg0.win 3).blk t).view.emb (ix2 p n) = ix2 r n := by
    funext a; apply Fin.ext
    match a with
    | ⟨0, _⟩ => show win0_3.index t (0 : Fin 2) * 256 + 1 * p.val = t.val * 256 + p.val; omega
    | ⟨1, _⟩ => show win0_3.index t (1 : Fin 2) * 4096 + 1 * n.val = n.val; omega
  have h4 : ((cfg0.win 4).blk t).view.emb (ix2 (0 : Fin 1) n) = ix2 (0 : Fin 1) n := by
    funext a; apply Fin.ext
    match a with
    | ⟨0, _⟩ => show win0_4.index t (0 : Fin 2) * 1 + 1 * 0 = 0; omega
    | ⟨1, _⟩ => show win0_4.index t (1 : Fin 2) * 4096 + 1 * n.val = n.val; omega
  have h5 : ((cfg0.win 5).blk t).view.emb (ix2 p (0 : Fin 1)) = ix2 r (0 : Fin 1) := by
    funext a; apply Fin.ext
    match a with
    | ⟨0, _⟩ => show win0_5.index t (0 : Fin 2) * 256 + 1 * p.val = t.val * 256 + p.val; omega
    | ⟨1, _⟩ => show win0_5.index t (1 : Fin 2) * 1 + 1 * 0 = 0; omega
  have h6 : ∀ g : Fin 64, ((cfg0.win 6).blk t).view.emb (ix2 g n) = ix2 g n := fun g => by
    funext a; apply Fin.ext
    match a with
    | ⟨0, _⟩ => show win0_6.index t (0 : Fin 2) * 64 + 1 * g.val = g.val; omega
    | ⟨1, _⟩ => show win0_6.index t (1 : Fin 2) * 4096 + 1 * n.val = n.val; omega
  show k0_pay1 (F := Ideal) (iblk0 V c 0 t) (iblk0 V c 1 t) (iblk0 V c 2 t) (iblk0 V c 6 t) (iblk0 V c 3 t) (iblk0 V c 4 t) (iblk0 V c 5 t) (ix2 p n)
    = dequantArr (codes V c) (scales V c) (zeroPts V c) (maskArr V c) (colFactor V c) (rowFactor V c) (((cfg0.win 7).blk t).view.emb (ix2 p n))
  rw [h7]
  refine (pay_apply (iblk0 V c 0 t) (iblk0 V c 1 t) (iblk0 V c 2 t) (iblk0 V c 6 t) (iblk0 V c 3 t) (iblk0 V c 4 t) (iblk0 V c 5 t) p n
    (fun g => ?_)).trans ?_
  · show expand V c (((cfg0.win 6).blk t).view.emb (ix2 g n)) = _
    rw [h6 g]
    exact he g n
  · show ((((FloatOps.sitofp (F := Ideal) .f32 (codes V c (((cfg0.win 0).blk t).view.emb (ix2 p n)))
          - zeroPts V c (((cfg0.win 2).blk t).view.emb (ix2 p (grp n))))
          * scales V c (((cfg0.win 1).blk t).view.emb (ix2 p (grp n))))
          * rowFactor V c (((cfg0.win 5).blk t).view.emb (ix2 p (0 : Fin 1))))
          * colFactor V c (((cfg0.win 4).blk t).view.emb (ix2 (0 : Fin 1) n)))
          * maskArr V c (((cfg0.win 3).blk t).view.emb (ix2 p n))
        = dequant (codes V c) (scales V c) (zeroPts V c) (maskArr V c) (colFactor V c) (rowFactor V c) r n
    rw [h0, h1 (grp n), h2 (grp n), h3, h4, h5]
    rfl

/-- An index of the matrix is in point `t`'s block iff each coordinate is in the block's range on its axis. -/
theorem mem_blk (t : Fin cfg0.N) (i : S4096x4096.Idx) :
    i ∈ ((cfg0.win 7).blk t).view.set ↔ ∀ a : Fin 2, win0_7.index t a * S256x4096.size a ≤ (i a).val ∧ (i a).val < win0_7.index t a * S256x4096.size a + S256x4096.size a := by
  show i ∈ ((View.whole main_v12).slice (win0_7.rect t)).set ↔ _
  rw [View.set_slice_whole, Rect.mem_set_unit]
  exact Iff.rfl

/-- Every row of the matrix lies in the block of the point `row / 256`. -/
theorem cover (i : S4096x4096.Idx) : ∃ t : Fin cfg0.N, (cfg0.win 7).flush t = true ∧ i ∈ ((cfg0.win 7).blk t).view.set := by
  have hi0 : (i 0).val < 4096 := (i 0).isLt
  have hi1 : (i 1).val < 4096 := (i 1).isLt
  have hN := N_0
  let t : Fin cfg0.N := ⟨(i 0).val / 256, by show (i 0).val / 256 < grid0.N; omega⟩
  obtain ⟨-, -, -, -, -, -, -, -, -, -, -, -, -, -, o0, o1⟩ := block_indices t
  have o0' : win0_7.index t (0 : Fin 2) = (i 0).val / 256 := o0
  refine ⟨t, flush0_7 t, ?_⟩
  rw [mem_blk]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 4096 ≤ (i 1).val ∧ (i 1).val < win0_7.index t (1 : Fin 2) * 4096 + 4096; omega

/-- The weight matrix after the first launch. -/
theorem final (c : Dev nD) (he : ∀ (g : Fin 64) (n : Fin 4096), expand V c (ix2 g n) = if g = grp n then 1 else 0) :
    (dat0 (F := Ideal) V c).arrAt 7 cfg0.N
      = dequantArr (codes V c) (scales V c) (zeroPts V c) (maskArr V c) (colFactor V c) (rowFactor V c) :=
  (dat0 (F := Ideal) V c).arrAt_eq_of_cover 7 _ (fun t _ => flushed_eq V c t he) cover

end Cert.KernelIdeal.Weights

end
-- ==== Proof.Product.lean ====
/-
  The second launch: the matrix product.  Each grid point `t` of 64 takes rows `128 t … 128 t + 127` of the
  activation matrix (8192 × 4096) and the whole weight matrix (4096 × 4096), and writes rows `128 t …` of the result:
  entry `(r, k)` is the sum over the 4096 columns `n` of `x[r, n] * w[k, n]` (both operands contracted on their second
  axis; the narrowing of the activations to a shorter float format is the identity on the extended reals).
  The 64 blocks tile the result, so the array after the launch is that one function of the two arrays the launch found.
-/
import proofs.«419959_j64330020159887_3_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Product

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The payload at an index -/

theorem lhs_0 (i : S128x4096.Idx) (q : dot_S128x4096_S4096x4096_S128x4096_1_1_0_0_n_n.contr.Idx) :
    (dot_S128x4096_S4096x4096_S128x4096_1_1_0_0_n_n.lhsIdx i q 0).val = (i 0).val := by
  unfold DotDims.lhsIdx
  rw [dif_neg (show ¬(0 : Fin S128x4096.rank) ∈ dot_S128x4096_S4096x4096_S128x4096_1_1_0_0_n_n.lhsBatch by decide), dif_pos (show (0 : Fin S128x4096.rank) ∈ dot_S128x4096_S4096x4096_S128x4096_1_1_0_0_n_n.lhsNonContracting by decide)]
  rfl
theorem lhs_1 (i : S128x4096.Idx) (q : dot_S128x4096_S4096x4096_S128x4096_1_1_0_0_n_n.contr.Idx) :
    (dot_S128x4096_S4096x4096_S128x4096_1_1_0_0_n_n.lhsIdx i q 1).val = (q ⟨0, by decide⟩).val :=
  dot_S128x4096_S4096x4096_S128x4096_1_1_0_0_n_n.lhsIdx_val_of_single rfl i q
theorem rhs_0 (i : S128x4096.Idx) (q : dot_S128x4096_S4096x4096_S128x4096_1_1_0_0_n_n.contr.Idx) :
    (dot_S128x4096_S4096x4096_S128x4096_1_1_0_0_n_n.rhsIdx i q 0).val = (i 1).val := by
  unfold DotDims.rhsIdx
  rw [dif_neg (show ¬(0 : Fin S4096x4096.rank) ∈ dot_S128x4096_S4096x4096_S128x4096_1_1_0_0_n_n.rhsBatch by decide), dif_pos (show (0 : Fin S4096x4096.rank) ∈ dot_S128x4096_S4096x4096_S128x4096_1_1_0_0_n_n.rhsNonContracting by decide)]
  rfl
theorem rhs_1 (i : S128x4096.Idx) (q : dot_S128x4096_S4096x4096_S128x4096_1_1_0_0_n_n.contr.Idx) :
    (dot_S128x4096_S4096x4096_S128x4096_1_1_0_0_n_n.rhsIdx i q 1).val = (q ⟨0, by decide⟩).val :=
  dot_S128x4096_S4096x4096_S128x4096_1_1_0_0_n_n.rhsIdx_val_of_single rfl i q

/-- The body's one stored value at row `p` of the block and output column `k`: the activation row against weight row `k`. -/
theorem pay_apply (x : FVec Ideal S128x4096 .f32) (w : FVec Ideal S4096x4096 .bf16) (p : Fin 128) (k : Fin 4096) :
    k1_pay1 (F := Ideal) x w (ix2 p k) = ∑ n : Fin 4096, x (ix2 p n) * w (ix2 k n) := by
  unfold k1_pay1
  rw [shapeCast_self, shapeCast_self]
  refine (Ideal.matmul_constant_zero_apply dot_S128x4096_S4096x4096_S128x4096_1_1_0_0_n_n none _ _ (ix2 p k)).trans ?_
  rw [← Equiv.sum_comp (contrEquiv1 dot_S128x4096_S4096x4096_S128x4096_1_1_0_0_n_n 4096 rfl rfl).symm]
  refine Finset.sum_congr rfl fun n _ => ?_
  have hk := contrEquiv1_symm_val dot_S128x4096_S4096x4096_S128x4096_1_1_0_0_n_n 4096 rfl rfl n
  have el : dot_S128x4096_S4096x4096_S128x4096_1_1_0_0_n_n.lhsIdx (ix2 p k) ((contrEquiv1 dot_S128x4096_S4096x4096_S128x4096_1_1_0_0_n_n 4096 rfl rfl).symm n) = ix2 p n := funext fun a => Fin.ext (by
    match a with
    | ⟨0, _⟩ => exact lhs_0 _ _
    | ⟨1, _⟩ => exact (lhs_1 _ _).trans hk)
  have er : dot_S128x4096_S4096x4096_S128x4096_1_1_0_0_n_n.rhsIdx (ix2 p k) ((contrEquiv1 dot_S128x4096_S4096x4096_S128x4096_1_1_0_0_n_n 4096 rfl rfl).symm n) = ix2 k n := funext fun a => Fin.ext (by
    match a with
    | ⟨0, _⟩ => exact rhs_0 _ _
    | ⟨1, _⟩ => exact (rhs_1 _ _).trans hk)
  rw [el, er]
  rfl

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The activation matrix as the launch finds it. -/
abbrev acts (c : Dev nD) : S8192x4096.Idx → EReal := V c main_v13
/-- The weight matrix as the launch finds it. -/
abbrev wts (c : Dev nD) : S4096x4096.Idx → EReal := V c main_v12

/-- The result matrix as one function of the activation matrix and the weight matrix: row `r` against weight row `k`. -/
def rowsTimesRows (X : S8192x4096.Idx → EReal) (Wt : S4096x4096.Idx → EReal) : S8192x4096.Idx → EReal :=
  fun i => ∑ n : Fin 4096, X (ix2 (i 0) n) * Wt (ix2 (i 1) n)

/-- The three windows' block indices at a grid point: the activations and the result move together down the rows,
    the weights stay whole. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the two arrays the launch found. -/
theorem flushed_eq (c : Dev nD) (t : Fin cfg1.N) :
    (dat1 (F := Ideal) V c).flushed 2 t
      = ((cfg1.win 2).blk t).view.read (Elt Ideal) (rowsTimesRows (V c main_v13) (V c main_v12)) := by
  show (cfg1.win 2).cut (grid1.coords t) ((dat1 V c).after 2 t) = _
  rw [after1_2]
  unfold out1_2
  rw [View.canon_unit_zero zero_offsets]
  simp only [View.ld_unit_zero (S := S128x4096) zero_offsets, View.ld_unit_zero (S := S4096x4096) zero_offsets]
  obtain ⟨e0, e1, e2, e3, e4, e5⟩ := block_indices t
  funext j
  obtain ⟨p, k, rfl⟩ : ∃ (p : Fin 128) (k : Fin 4096), j = ix2 p k := ⟨j 0, j 1, eq_ix2 j⟩
  show k1_pay1 (F := Ideal) (iblk1 V c 0 t) (iblk1 V c 1 t) (ix2 p k)
    = rowsTimesRows (V c main_v13) (V c main_v12) (((cfg1.win 2).blk t).view.emb (ix2 p k))
  refine (pay_apply (iblk1 V c 0 t) (iblk1 V c 1 t) p k).trans ?_
  unfold rowsTimesRows
  refine Finset.sum_congr rfl fun n _ => ?_
  have h0 : ((cfg1.win 0).blk t).view.emb (ix2 p n) = ix2 ((((cfg1.win 2).blk t).view.emb (ix2 p k)) 0) n := by
    funext a; apply Fin.ext
    match a with
    | ⟨0, _⟩ => show win1_0.index t (0 : Fin 2) * 128 + 1 * p.val = win1_2.index t (0 : Fin 2) * 128 + 1 * p.val; omega
    | ⟨1, _⟩ => show win1_0.index t (1 : Fin 2) * 4096 + 1 * n.val = n.val; omega
  have h1 : ((cfg1.win 1).blk t).view.emb (ix2 k n) = ix2 ((((cfg1.win 2).blk t).view.emb (ix2 p k)) 1) n := by
    funext a; apply Fin.ext
    match a with
    | ⟨0, _⟩ => show win1_1.index t (0 : Fin 2) * 4096 + 1 * k.val = win1_2.index t (1 : Fin 2) * 4096 + 1 * k.val; omega
    | ⟨1, _⟩ => show win1_1.index t (1 : Fin 2) * 4096 + 1 * n.val = n.val; omega
  show acts V c (((cfg1.win 0).blk t).view.emb (ix2 p n)) * wts V c (((cfg1.win 1).blk t).view.emb (ix2 k n))
    = acts V c (ix2 ((((cfg1.win 2).blk t).view.emb (ix2 p k)) 0) n) * wts V c (ix2 ((((cfg1.win 2).blk t).view.emb (ix2 p k)) 1) n)
  exact congrArg₂ (· * ·) (congrArg (acts V c) h0) (congrArg (wts V c) h1)

/-- An index of the result is in point `t`'s block iff each coordinate is in the block's range on its axis. -/
theorem mem_blk (t : Fin cfg1.N) (i : S8192x4096.Idx) :
    i ∈ ((cfg1.win 2).blk t).view.set ↔ ∀ a : Fin 2, win1_2.index t a * S128x4096.size a ≤ (i a).val ∧ (i a).val < win1_2.index t a * S128x4096.size a + S128x4096.size a := by
  show i ∈ ((View.whole main_v14).slice (win1_2.rect t)).set ↔ _
  rw [View.set_slice_whole, Rect.mem_set_unit]
  exact Iff.rfl

/-- Every row of the result lies in the block of the point `row / 128`. -/
theorem cover (i : S8192x4096.Idx) : ∃ t : Fin cfg1.N, (cfg1.win 2).flush t = true ∧ i ∈ ((cfg1.win 2).blk t).view.set := by
  have hi0 : (i 0).val < 8192 := (i 0).isLt
  have hi1 : (i 1).val < 4096 := (i 1).isLt
  have hN := N_1
  let t : Fin cfg1.N := ⟨(i 0).val / 128, by show (i 0).val / 128 < grid1.N; omega⟩
  obtain ⟨e0, e1, e2, e3, e4, e5⟩ := block_indices t
  have e4' : win1_2.index t (0 : Fin 2) = (i 0).val / 128 := e4
  refine ⟨t, flush1_2 t, ?_⟩
  rw [mem_blk]
  intro a
  match a with
  | ⟨0, _⟩ => show win1_2.index t (0 : Fin 2) * 128 ≤ (i 0).val ∧ (i 0).val < win1_2.index t (0 : Fin 2) * 128 + 128; omega
  | ⟨1, _⟩ => show win1_2.index t (1 : Fin 2) * 4096 ≤ (i 1).val ∧ (i 1).val < win1_2.index t (1 : Fin 2) * 4096 + 4096; omega

/-- The result matrix after the second launch. -/
theorem final (c : Dev nD) :
    (dat1 (F := Ideal) V c).arrAt 2 cfg1.N = rowsTimesRows (V c main_v13) (V c main_v12) :=
  (dat1 (F := Ideal) V c).arrAt_eq_of_cover 2 _ (fun t _ => flushed_eq V c t) cover

end Cert.KernelIdeal.Product

end
-- ==== Proof.Boundary.lean ====
/-
  What the host operations around the two launches leave in the buffers the launches read.

  Before the first launch: the scales, zero points and the two factor vectors are only reshaped (4096 × 64 × 1 to
  4096 × 64; 4096 to 1 × 4096 and to 4096 × 1).  The expansion matrix `e` (64 × 4096) is computed: `e[g, n] = 1` when
  `g = floor_divide(n, 64)` and `0` otherwise, where `floor_divide` on 32-bit words is the truncated quotient, less one
  where the operands' signs differ and the remainder is not zero.  For the lanes `n = 0 … 4095` and the divisor 64
  the correction never applies (the signs differ only at `n = 0`, whose remainder is zero), so the word is `n / 64`:
  decided lane by lane.  Between the launches the activations are reshaped 4 × 2048 × 4096 to 8192 × 4096 (row
  `2048 b + s`), and after the second launch the result is reshaped back.
-/
import proofs.«419959_j64330020159887_3_alg».proof.Proof.Gen.KernelIdeal.Frame
import proofs.«419959_j64330020159887_3_alg».proof.Proof.Spec
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout

set_option maxRecDepth 16384

noncomputable section

namespace Cert.KernelIdeal.Boundary

open Cert.KernelIdeal Cert.KernelIdeal.Gen Cert.QuantLinear
open Idealize.ShloMosaic Idealize.ShloMosaic.TcCoe Idealize.ShloMosaic.ValueIdx Idealize.SL.Sem Idealize.ShloMosaic.StableHlo

/-! ## Floor division of the lane numbers by 64 -/

/-- The sign of a 32-bit word as a word: 0, -1 or 1. -/
def signWord (x : BitVec 32) : BitVec 32 := if x = 0 then 0 else if x.msb then -1 else 1

/-- jnp's floor division on two 32-bit words: the truncated quotient, less one where the signs differ and the
    remainder is not zero. -/
def floorDivWord (a c : BitVec 32) : BitVec 32 :=
  Scalar.select (IntOp.andi (IntOp.cmpi .ne (signWord a) (signWord c)) (IntOp.cmpi .ne (IntOp.remsi .host a c) 0#32))
    (IntOp.subi (IntOp.divsi .host a c) 1#32) (IntOp.divsi .host a c)

/-- For the lane numbers below 4096 and the divisor 64 it is the quotient `n / 64`. -/
theorem floorDivWord_lane : ∀ n : Fin 4096, floorDivWord (BitVec.ofNat 32 n.val) 64#32 = BitVec.ofNat 32 (n.val / 64) := by
  decide +kernel

/-- The same computation on a vector of 4096 words and a scalar divisor, as the host program spells it. -/
def floorDivVec (a : IVec S4096 32) (c : IVec S_ 32) : IVec S4096 32 :=
  select
    (andi (cmpi .ne (signi a) (broadcastInDim S4096 ![] Cert.KernelIdeal.Gen.bcast_S_S4096 (signi c)))
      (cmpi .ne (Host.remsi a (broadcastInDim S4096 ![] Cert.KernelIdeal.Gen.bcast_S_S4096 c))
        (broadcastInDim S4096 ![] Cert.KernelIdeal.Gen.bcast_S_S4096 (constantI S_ 32 0#32))))
    (subi (Host.divsi a (broadcastInDim S4096 ![] Cert.KernelIdeal.Gen.bcast_S_S4096 c))
      (broadcastInDim S4096 ![] Cert.KernelIdeal.Gen.bcast_S_S4096 (constantI S_ 32 1#32)))
    (Host.divsi a (broadcastInDim S4096 ![] Cert.KernelIdeal.Gen.bcast_S_S4096 c))

/-- Lane `n` of the lane numbers floor-divided by 64 is the word `n / 64`. -/
theorem floorDivVec_lane (n : Fin 4096) :
    floorDivVec (iotaInDim S4096 32 0) (constantI S_ 32 64#32) (ix1 n) = BitVec.ofNat 32 (n.val / 64) :=
  (show floorDivWord (BitVec.ofNat 32 n.val) 64#32 = _ from floorDivWord_lane n)

/-! ## The expansion matrix is one-hot -/

/-- The expansion matrix from the vector of group numbers: 1 where the row number is the column's group number. -/
def expansion {F : FTy → Type} [FloatOps F] (d : IVec S4096 32) : FVec F S64x4096 .f32 :=
  uitofp .f32 (cmpi .eq
    (broadcastInDim S64x4096 ![0, 1] Cert.KernelIdeal.Gen.bcast_S64x1_S64x4096_0_1 (iotaInDim S64x1 32 0))
    (broadcastInDim S64x4096 ![0, 1] Cert.KernelIdeal.Gen.bcast_S1x4096_S64x4096_0_1
      (shapeCast S1x4096 d Cert.KernelIdeal.Gen.shapeCasts_S4096_S1x4096)))

theorem ofNat_ne_of_ne {a b : Nat} (ha : a < 2 ^ 32) (hb : b < 2 ^ 32) (h : a ≠ b) : BitVec.ofNat 32 a ≠ BitVec.ofNat 32 b := by
  intro e
  have := congrArg BitVec.toNat e
  rw [BitVec.toNat_ofNat, BitVec.toNat_ofNat, Nat.mod_eq_of_lt ha, Nat.mod_eq_of_lt hb] at this
  exact h this

/-- At the extended reals, with the group numbers `n / 64`, entry `(g, n)` is 1 when `g` is the group of `n`, else 0. -/
theorem expansion_onehot (d : IVec S4096 32) (hd : ∀ n : Fin 4096, d (ix1 n) = BitVec.ofNat 32 (n.val / 64))
    (g : Fin 64) (n : Fin 4096) : expansion (F := Ideal) d (ix2 g n) = if g = grp n then 1 else 0 := by
  have hrow : broadcastInDim S64x4096 ![0, 1] Cert.KernelIdeal.Gen.bcast_S64x1_S64x4096_0_1 (iotaInDim S64x1 32 0) (ix2 g n)
      = BitVec.ofNat 32 g.val :=
    broadcastInDim_apply _ Cert.KernelIdeal.Gen.bcast_S64x1_S64x4096_0_1 (iotaInDim S64x1 32 0) (ix2 g n) (ix2 g (0 : Fin 1))
      (fun a => match a with
        | ⟨0, _⟩ => by show g.val = if (64 : Nat) = 1 then 0 else g.val; rw [if_neg (by decide)]
        | ⟨1, _⟩ => by show 0 = if (1 : Nat) = 1 then 0 else n.val; rw [if_pos rfl])
  have hcol : broadcastInDim S64x4096 ![0, 1] Cert.KernelIdeal.Gen.bcast_S1x4096_S64x4096_0_1
        (shapeCast S1x4096 d Cert.KernelIdeal.Gen.shapeCasts_S4096_S1x4096) (ix2 g n)
      = BitVec.ofNat 32 (n.val / 64) := by
    refine (broadcastInDim_apply _ Cert.KernelIdeal.Gen.bcast_S1x4096_S64x4096_0_1 _ (ix2 g n) (ix2 (0 : Fin 1) n)
      (fun a => match a with
        | ⟨0, _⟩ => by show 0 = if (1 : Nat) = 1 then 0 else g.val; rw [if_pos rfl]
        | ⟨1, _⟩ => by show n.val = if (4096 : Nat) = 1 then 0 else n.val; rw [if_neg (by decide)])).trans ?_
    exact (shapeCast_a_1a_apply d Cert.KernelIdeal.Gen.shapeCasts_S4096_S1x4096 (0 : Fin 1) n).trans (hd n)
  show FloatOps.uitofp (F := Ideal) .f32 (IntOp.cmpi .eq
      (broadcastInDim S64x4096 ![0, 1] Cert.KernelIdeal.Gen.bcast_S64x1_S64x4096_0_1 (iotaInDim S64x1 32 0) (ix2 g n))
      (broadcastInDim S64x4096 ![0, 1] Cert.KernelIdeal.Gen.bcast_S1x4096_S64x4096_0_1
        (shapeCast S1x4096 d Cert.KernelIdeal.Gen.shapeCasts_S4096_S1x4096) (ix2 g n))) = _
  rw [hrow, hcol]
  have hg := g.isLt; have hn := n.isLt
  by_cases h : g = grp n
  · rw [if_pos h]
    have hv : g.val = n.val / 64 := congrArg Fin.val h
    rw [hv, Predicate.cmpi_eq_iff.mpr rfl]
    show (((1#1 : BitVec 1).toNat : ℝ) : EReal) = 1
    norm_num
  · rw [if_neg h]
    have hv : g.val ≠ n.val / 64 := fun e => h (Fin.ext e)
    have hne : ¬ IntOp.cmpi .eq (BitVec.ofNat 32 g.val) (BitVec.ofNat 32 (n.val / 64)) = 1#1 := fun e =>
      ofNat_ne_of_ne (by omega) (by omega) hv (Predicate.cmpi_eq_iff.mp e)
    rw [eq_zero_of_ne_one hne]
    show (((0#1 : BitVec 1).toNat : ℝ) : EReal) = 0
    norm_num

/-! ## Each host stretch, over arbitrary contents -/

section Stretches

variable {F : FTy → Type} [FloatOps F] (X : Valuation τ sig (Elt F))

theorem stretch0_scales : after (hostOps0 (F := F)) X (Proc.devRef .tc main_v0)
    = shapeCast S4096x64 (X (Proc.devRef .tc main_arg2)) Cert.KernelIdeal.Gen.shapeCasts_S4096x64x1_S4096x64 := by
  dsimp only [hostOps0]; after_results; rfl
theorem stretch0_zeroPts : after (hostOps0 (F := F)) X (Proc.devRef .tc main_v1)
    = shapeCast S4096x64 (X (Proc.devRef .tc main_arg3)) Cert.KernelIdeal.Gen.shapeCasts_S4096x64x1_S4096x64 := by
  dsimp only [hostOps0]; after_results; rfl
theorem stretch0_colFactor : after (hostOps0 (F := F)) X (Proc.devRef .tc main_v2)
    = shapeCast S1x4096 (X (Proc.devRef .tc main_arg5)) Cert.KernelIdeal.Gen.shapeCasts_S4096_S1x4096 := by
  dsimp only [hostOps0]; after_results; rfl
theorem stretch0_rowFactor : after (hostOps0 (F := F)) X (Proc.devRef .tc main_v3)
    = shapeCast S4096x1 (X (Proc.devRef .tc main_arg6)) Cert.KernelIdeal.Gen.shapeCasts_S4096_S4096x1 := by
  dsimp only [hostOps0]; after_results; rfl
theorem stretch0_lanes : after (hostOps0 (F := F)) X (Proc.devRef .tc main_v4) = iotaInDim S4096 32 0 := by
  dsimp only [hostOps0]; after_results
theorem stretch0_divisor : after (hostOps0 (F := F)) X (Proc.devRef .tc main_c) = constantI S_ 32 64#32 := by
  dsimp only [hostOps0]; after_results

theorem stretch1_groups : after (hostOps0_1 (F := F)) X (Proc.devRef .tc main_v5)
    = floorDivVec (X (Proc.devRef .tc main_v4)) (X (Proc.devRef .tc main_c)) := by
  dsimp only [hostOps0_1]; after_results; rfl

theorem stretch2_expansion : after (hostOps0_2 (F := F)) X (Proc.devRef .tc main_v11)
    = expansion (F := F) (X (Proc.devRef .tc main_v5)) := by
  dsimp only [hostOps0_2]; after_results; rfl

theorem stretch3_acts : after (hostOps1 (F := F)) X (Proc.devRef .tc main_v13)
    = shapeCast S8192x4096 (X (Proc.devRef .tc main_arg0)) Cert.KernelIdeal.Gen.shapeCasts_S4x2048x4096_S8192x4096 := by
  dsimp only [hostOps1]; after_results; rfl

theorem stretch4_result : after (hostOps2 (F := F)) X (Proc.devRef .tc main_v15)
    = shapeCast S4x2048x4096 (X (Proc.devRef .tc main_v14)) Cert.KernelIdeal.Gen.shapeCasts_S8192x4096_S4x2048x4096 := by
  dsimp only [hostOps2]; after_results; rfl

end Stretches

/-! ## The contents at the launches' boundaries, from the launch memory -/

section Contents

variable {F : FTy → Type} [FloatOps F]
variable (m : (ℓ : Loc nD τ sig) → Buf (Elt F) ℓ) (ρ : Dev nD → PrngReg)

/-- No operation of the named stretch writes the buffer in question. -/
local macro "unwritten" ops:ident : tactic => `(tactic| (
  refine List.forall_iff_forall_mem.mp ?_
  simp only [$ops:ident, List.Forall, nullary_writes, unary_writes, binary_writes, ternary_writes, reshape_writes, Finset.mem_singleton]
  repeat' apply And.intro
  all_goals exact devRef_ne_of_ne (by decide)))

/-- The integer codes reach the first launch as launched. -/
theorem entry0_codes (c : Dev nD) : V3 m ρ c main_arg1 = m ((c : Thread nD τ).loc main_arg1) :=
  calc W3 m ρ c (Proc.devRef .tc main_arg1)
    _ = W2 m ρ c (Proc.devRef .tc main_arg1) := after_of_forall_not_mem (b := Proc.devRef .tc main_arg1) _ _ (by unwritten hostOps0_2)
    _ = W1 m ρ c (Proc.devRef .tc main_arg1) := after_of_forall_not_mem (b := Proc.devRef .tc main_arg1) _ _ (by unwritten hostOps0_1)
    _ = W0 m ρ c (Proc.devRef .tc main_arg1) := after_of_forall_not_mem (b := Proc.devRef .tc main_arg1) _ _ (by unwritten hostOps0)
    _ = m ((c : Thread nD τ).loc main_arg1) := rfl

/-- So does the mask. -/
theorem entry0_mask (c : Dev nD) : V3 m ρ c main_arg4 = m ((c : Thread nD τ).loc main_arg4) :=
  calc W3 m ρ c (Proc.devRef .tc main_arg4)
    _ = W2 m ρ c (Proc.devRef .tc main_arg4) := after_of_forall_not_mem (b := Proc.devRef .tc main_arg4) _ _ (by unwritten hostOps0_2)
    _ = W1 m ρ c (Proc.devRef .tc main_arg4) := after_of_forall_not_mem (b := Proc.devRef .tc main_arg4) _ _ (by unwritten hostOps0_1)
    _ = W0 m ρ c (Proc.devRef .tc main_arg4) := after_of_forall_not_mem (b := Proc.devRef .tc main_arg4) _ _ (by unwritten hostOps0)
    _ = m ((c : Thread nD τ).loc main_arg4) := rfl

/-- And the activations, which the first launch does not touch either. -/
theorem entry0_acts (c : Dev nD) : W3 m ρ c (Proc.devRef .tc main_arg0) = m ((c : Thread nD τ).loc main_arg0) :=
  calc W3 m ρ c (Proc.devRef .tc main_arg0)
    _ = W2 m ρ c (Proc.devRef .tc main_arg0) := after_of_forall_not_mem (b := Proc.devRef .tc main_arg0) _ _ (by unwritten hostOps0_2)
    _ = W1 m ρ c (Proc.devRef .tc main_arg0) := after_of_forall_not_mem (b := Proc.devRef .tc main_arg0) _ _ (by unwritten hostOps0_1)
    _ = W0 m ρ c (Proc.devRef .tc main_arg0) := after_of_forall_not_mem (b := Proc.devRef .tc main_arg0) _ _ (by unwritten hostOps0)
    _ = m ((c : Thread nD τ).loc main_arg0) := rfl

/-- The scales reach the first launch reshaped to 4096 × 64. -/
theorem entry0_scales (c : Dev nD) : V3 m ρ c main_v0
    = shapeCast S4096x64 (m ((c : Thread nD τ).loc main_arg2)) Cert.KernelIdeal.Gen.shapeCasts_S4096x64x1_S4096x64 :=
  calc W3 m ρ c (Proc.devRef .tc main_v0)
    _ = W2 m ρ c (Proc.devRef .tc main_v0) := after_of_forall_not_mem (b := Proc.devRef .tc main_v0) _ _ (by unwritten hostOps0_2)
    _ = W1 m ρ c (Proc.devRef .tc main_v0) := after_of_forall_not_mem (b := Proc.devRef .tc main_v0) _ _ (by unwritten hostOps0_1)
    _ = shapeCast S4096x64 (W0 m ρ c (Proc.devRef .tc main_arg2)) Cert.KernelIdeal.Gen.shapeCasts_S4096x64x1_S4096x64 := stretch0_scales (W0 m ρ c)
    _ = _ := rfl

/-- The zero points likewise. -/
theorem entry0_zeroPts (c : Dev nD) : V3 m ρ c main_v1
    = shapeCast S4096x64 (m ((c : Thread nD τ).loc main_arg3)) Cert.KernelIdeal.Gen.shapeCasts_S4096x64x1_S4096x64 :=
  calc W3 m ρ c (Proc.devRef .tc main_v1)
    _ = W2 m ρ c (Proc.devRef .tc main_v1) := after_of_forall_not_mem (b := Proc.devRef .tc main_v1) _ _ (by unwritten hostOps0_2)
    _ = W1 m ρ c (Proc.devRef .tc main_v1) := after_of_forall_not_mem (b := Proc.devRef .tc main_v1) _ _ (by unwritten hostOps0_1)
    _ = shapeCast S4096x64 (W0 m ρ c (Proc.devRef .tc main_arg3)) Cert.KernelIdeal.Gen.shapeCasts_S4096x64x1_S4096x64 := stretch0_zeroPts (W0 m ρ c)
    _ = _ := rfl

/-- The column factors as one row. -/
theorem entry0_colFactor (c : Dev nD) : V3 m ρ c main_v2
    = shapeCast S1x4096 (m ((c : Thread nD τ).loc main_arg5)) Cert.KernelIdeal.Gen.shapeCasts_S4096_S1x4096 :=
  calc W3 m ρ c (Proc.devRef .tc main_v2)
    _ = W2 m ρ c (Proc.devRef .tc main_v2) := after_of_forall_not_mem (b := Proc.devRef .tc main_v2) _ _ (by unwritten hostOps0_2)
    _ = W1 m ρ c (Proc.devRef .tc main_v2) := after_of_forall_not_mem (b := Proc.devRef .tc main_v2) _ _ (by unwritten hostOps0_1)
    _ = shapeCast S1x4096 (W0 m ρ c (Proc.devRef .tc main_arg5)) Cert.KernelIdeal.Gen.shapeCasts_S4096_S1x4096 := stretch0_colFactor (W0 m ρ c)
    _ = _ := rfl

/-- The row factors as one column. -/
theorem entry0_rowFactor (c : Dev nD) : V3 m ρ c main_v3
    = shapeCast S4096x1 (m ((c : Thread nD τ).loc main_arg6)) Cert.KernelIdeal.Gen.shapeCasts_S4096_S4096x1 :=
  calc W3 m ρ c (Proc.devRef .tc main_v3)
    _ = W2 m ρ c (Proc.devRef .tc main_v3) := after_of_forall_not_mem (b := Proc.devRef .tc main_v3) _ _ (by unwritten hostOps0_2)
    _ = W1 m ρ c (Proc.devRef .tc main_v3) := after_of_forall_not_mem (b := Proc.devRef .tc main_v3) _ _ (by unwritten hostOps0_1)
    _ = shapeCast S4096x1 (W0 m ρ c (Proc.devRef .tc main_arg6)) Cert.KernelIdeal.Gen.shapeCasts_S4096_S4096x1 := stretch0_rowFactor (W0 m ρ c)
    _ = _ := rfl

/-- The expansion matrix the first launch finds is the one computed from the lane numbers floor-divided by 64. -/
theorem entry0_expansion (c : Dev nD) : V3 m ρ c main_v11
    = expansion (F := F) (floorDivVec (iotaInDim S4096 32 0) (constantI S_ 32 64#32)) :=
  calc W3 m ρ c (Proc.devRef .tc main_v11)
    _ = expansion (F := F) (W2 m ρ c (Proc.devRef .tc main_v5)) := stretch2_expansion (W2 m ρ c)
    _ = expansion (F := F) (floorDivVec (W1 m ρ c (Proc.devRef .tc main_v4)) (W1 m ρ c (Proc.devRef .tc main_c))) :=
        congrArg (expansion (F := F)) (stretch1_groups (W1 m ρ c))
    _ = _ := congrArg (expansion (F := F)) (congrArg₂ floorDivVec (stretch0_lanes (W0 m ρ c)) (stretch0_divisor (W0 m ρ c)))

/-- The second launch finds the activations reshaped to 8192 × 4096. -/
theorem entry1_acts (c : Dev nD) : V5 m ρ c main_v13
    = shapeCast S8192x4096 (m ((c : Thread nD τ).loc main_arg0)) Cert.KernelIdeal.Gen.shapeCasts_S4x2048x4096_S8192x4096 :=
  calc W5 m ρ c (Proc.devRef .tc main_v13)
    _ = shapeCast S8192x4096 (W4 m ρ c (Proc.devRef .tc main_arg0)) Cert.KernelIdeal.Gen.shapeCasts_S4x2048x4096_S8192x4096 := stretch3_acts (W4 m ρ c)
    _ = shapeCast S8192x4096 (W3 m ρ c (Proc.devRef .tc main_arg0)) Cert.KernelIdeal.Gen.shapeCasts_S4x2048x4096_S8192x4096 :=
        congrArg (fun x => shapeCast S8192x4096 x Cert.KernelIdeal.Gen.shapeCasts_S4x2048x4096_S8192x4096) (W4_of_ne m ρ c main_arg0 (by decide))
    _ = _ := congrArg (fun x => shapeCast S8192x4096 x Cert.KernelIdeal.Gen.shapeCasts_S4x2048x4096_S8192x4096) (entry0_acts m ρ c)

/-- And the weight matrix as the first launch left it. -/
theorem entry1_weights (c : Dev nD) : V5 m ρ c main_v12 = (dat0 (V3 m ρ) c).arrAt 7 cfg0.N :=
  calc W5 m ρ c (Proc.devRef .tc main_v12)
    _ = W4 m ρ c (Proc.devRef .tc main_v12) := after_of_forall_not_mem (b := Proc.devRef .tc main_v12) _ _ (by unwritten hostOps1)
    _ = _ := W4_arr m ρ c 7

/-- The program's result is the second launch's matrix reshaped to 4 × 2048 × 4096. -/
theorem exit_result (c : Dev nD) : W7 m ρ c (Proc.devRef .tc main_v15)
    = shapeCast S4x2048x4096 ((dat1 (V5 m ρ) c).arrAt 2 cfg1.N) Cert.KernelIdeal.Gen.shapeCasts_S8192x4096_S4x2048x4096 :=
  calc W7 m ρ c (Proc.devRef .tc main_v15)
    _ = shapeCast S4x2048x4096 (W6 m ρ c (Proc.devRef .tc main_v14)) Cert.KernelIdeal.Gen.shapeCasts_S8192x4096_S4x2048x4096 := stretch4_result (W6 m ρ c)
    _ = _ := congrArg (fun x => shapeCast S4x2048x4096 x Cert.KernelIdeal.Gen.shapeCasts_S8192x4096_S4x2048x4096) (W6_arr m ρ c 2)

end Contents

end Cert.KernelIdeal.Boundary

end
-- ==== Proof.Result.lean ====
/-
  The idealized kernel's result is the specification.

  Read back from the end: the result is the second launch's 8192 × 4096 matrix reshaped, so entry `(b, s, k)` is that
  matrix at row `2048 b + s`, column `k`; that entry is the sum over `n` of the reshaped activations at
  `(2048 b + s, n)` — the activation `x[b, s, n]` — times the first launch's matrix at `(k, n)`; and that matrix, the
  expansion matrix being one-hot, is the dequantised weight of the reshaped scales, zero points and factors, which read
  back to the arguments' entries `(k, n / 64, 0)`, `n` and `k`.
-/
import proofs.«419959_j64330020159887_3_alg».proof.Proof.Weights
import proofs.«419959_j64330020159887_3_alg».proof.Proof.Product
import proofs.«419959_j64330020159887_3_alg».proof.Proof.Boundary

set_option maxRecDepth 16384

noncomputable section

namespace Cert.KernelIdeal.Result

open Cert.KernelIdeal Cert.KernelIdeal.Gen Cert.QuantLinear
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The reshapes at an index -/

/-- A 4096 × 64 × 1 array flattened to 4096 × 64 keeps its entries. -/
theorem groups_flat {α : Type} (x : S4096x64x1.Idx → α) (k : Fin 4096) (g : Fin 64) :
    shapeCast S4096x64 x Cert.KernelIdeal.Gen.shapeCasts_S4096x64x1_S4096x64 (ix2 k g) = x (ix3 k g (0 : Fin 1)) :=
  shapeCast_apply x _ (ix2 k g) (ix3 k g (0 : Fin 1)) (by
    rw [Shape.rowMajor_val_three, Shape.rowMajor_val_two]
    show (k.val * 64 + g.val) * 1 + 0 = k.val * 64 + g.val
    omega)

/-- A vector of 4096 as one column. -/
theorem vector_as_column {α : Type} (x : S4096.Idx → α) (k : Fin 4096) :
    shapeCast S4096x1 x Cert.KernelIdeal.Gen.shapeCasts_S4096_S4096x1 (ix2 k (0 : Fin 1)) = x (ix1 k) :=
  shapeCast_apply x _ (ix2 k (0 : Fin 1)) (ix1 k) (by
    rw [Shape.rowMajor_val_one, Shape.rowMajor_val_two]
    show k.val = k.val * 1 + 0
    omega)

/-- The row of the 8192-row matrices that batch `b`, position `s` is. -/
def flatRow (b : Fin 4) (s : Fin 2048) : Fin 8192 := ⟨b.val * 2048 + s.val, by have := b.isLt; have := s.isLt; omega⟩

/-- The activations flattened to 8192 rows. -/
theorem acts_flat {α : Type} (x : S4x2048x4096.Idx → α) (b : Fin 4) (s : Fin 2048) (n : Fin 4096) :
    shapeCast S8192x4096 x Cert.KernelIdeal.Gen.shapeCasts_S4x2048x4096_S8192x4096 (ix2 (flatRow b s) n) = x (ix3 b s n) :=
  shapeCast_apply x _ (ix2 (flatRow b s) n) (ix3 b s n) (by
    rw [Shape.rowMajor_val_three, Shape.rowMajor_val_two]
    show (b.val * 2048 + s.val) * 4096 + n.val = (b.val * 2048 + s.val) * 4096 + n.val
    rfl)

/-- The 8192-row result unflattened. -/
theorem result_unflat {α : Type} (y : S8192x4096.Idx → α) (b : Fin 4) (s : Fin 2048) (k : Fin 4096) :
    shapeCast S4x2048x4096 y Cert.KernelIdeal.Gen.shapeCasts_S8192x4096_S4x2048x4096 (ix3 b s k) = y (ix2 (flatRow b s) k) :=
  shapeCast_apply y _ (ix3 b s k) (ix2 (flatRow b s) k) (by
    rw [Shape.rowMajor_val_two, Shape.rowMajor_val_three]
    show (b.val * 2048 + s.val) * 4096 + k.val = (b.val * 2048 + s.val) * 4096 + k.val
    rfl)

/-! ## The weight matrix the first launch leaves -/

/-- The expansion matrix the first launch finds is one-hot at each column's group. -/
theorem expansion_found (c : Dev nD) (g : Fin 64) (n : Fin 4096) :
    Weights.expand (V3 m ρ) c (ix2 g n) = if g = grp n then 1 else 0 := by
  exact (congrFun (Boundary.entry0_expansion m ρ c) (ix2 g n)).trans
    (Boundary.expansion_onehot _ Boundary.floorDivVec_lane g n)

/-- Entry `(k, n)` of the first launch's matrix is the specification's weight of the arguments. -/
theorem weights_entry (c : Dev nD) (k n : Fin 4096) :
    (dat0 (F := Ideal) (V3 m ρ) c).arrAt 7 cfg0.N (ix2 k n)
      = weight (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) k n := by
  rw [Weights.final (V3 m ρ) c (expansion_found m ρ c)]
  show Weights.dequant (Weights.codes (V3 m ρ) c) (Weights.scales (V3 m ρ) c) (Weights.zeroPts (V3 m ρ) c)
    (Weights.maskArr (V3 m ρ) c) (Weights.colFactor (V3 m ρ) c) (Weights.rowFactor (V3 m ρ) c) k n = _
  have e1 : Weights.codes (V3 m ρ) c (ix2 k n) = m ((c : Thread nD τ).loc main_arg1) (ix2 k n) :=
    congrFun (Boundary.entry0_codes m ρ c) _
  have e2 : Weights.zeroPts (V3 m ρ) c (ix2 k (grp n)) = m ((c : Thread nD τ).loc main_arg3) (ix3 k (grp n) (0 : Fin 1)) :=
    (congrFun (Boundary.entry0_zeroPts m ρ c) _).trans (groups_flat _ k (grp n))
  have e3 : Weights.scales (V3 m ρ) c (ix2 k (grp n)) = m ((c : Thread nD τ).loc main_arg2) (ix3 k (grp n) (0 : Fin 1)) :=
    (congrFun (Boundary.entry0_scales m ρ c) _).trans (groups_flat _ k (grp n))
  have e4 : Weights.rowFactor (V3 m ρ) c (ix2 k (0 : Fin 1)) = m ((c : Thread nD τ).loc main_arg6) (ix1 k) :=
    (congrFun (Boundary.entry0_rowFactor m ρ c) _).trans (vector_as_column _ k)
  have e5 : Weights.colFactor (V3 m ρ) c (ix2 (0 : Fin 1) n) = m ((c : Thread nD τ).loc main_arg5) (ix1 n) :=
    (congrFun (Boundary.entry0_colFactor m ρ c) _).trans (shapeCast_a_1a_apply _ _ (0 : Fin 1) n)
  have e6 : Weights.maskArr (V3 m ρ) c (ix2 k n) = m ((c : Thread nD τ).loc main_arg4) (ix2 k n) :=
    congrFun (Boundary.entry0_mask m ρ c) _
  unfold Weights.dequant weight
  rw [e1, e2, e3, e4, e5, e6]

/-! ## The result -/

/-- The activations as launched, at their literal type. -/
abbrev actsLaunched (c : Dev nD) : S4x2048x4096.Idx → EReal := m ((c : Thread nD τ).loc main_arg0)

/-- The result array of the idealized kernel is the specification of the layer, of the arguments as launched. -/
theorem result_eq (c : Dev nD) :
    W7 (F := Ideal) m ρ c (Proc.devRef .tc main_v15)
      = linear (m ((c : Thread nD τ).loc main_arg0))
          (weight (m ((c : Thread nD τ).loc main_arg1)) (m ((c : Thread nD τ).loc main_arg2)) (m ((c : Thread nD τ).loc main_arg3))
            (m ((c : Thread nD τ).loc main_arg4)) (m ((c : Thread nD τ).loc main_arg5)) (m ((c : Thread nD τ).loc main_arg6))) := by
  refine (Boundary.exit_result m ρ c).trans ?_
  funext i
  obtain ⟨b, s, k, rfl⟩ : ∃ (b : Fin 4) (s : Fin 2048) (k : Fin 4096), i = ix3 b s k := ⟨i 0, i 1, i 2, eq_ix3 i⟩
  refine (result_unflat _ b s k).trans ?_
  rw [Product.final (V5 m ρ) c]
  show ∑ n : Fin 4096, Product.acts (V5 m ρ) c (ix2 (flatRow b s) n) * Product.wts (V5 m ρ) c (ix2 k n)
    = ∑ n : Fin 4096, actsLaunched m c (ix3 b s n) * weight (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) k n
  refine Finset.sum_congr rfl fun n _ => ?_
  have ha : Product.acts (V5 m ρ) c (ix2 (flatRow b s) n) = actsLaunched m c (ix3 b s n) :=
    (congrFun (Boundary.entry1_acts m ρ c) _).trans (acts_flat _ b s n)
  have hw : Product.wts (V5 m ρ) c (ix2 k n)
      = weight (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) k n :=
    (congrFun (Boundary.entry1_weights m ρ c) _).trans (weights_entry m ρ c k n)
  exact congrArg₂ (· * ·) ha hw

end Cert.KernelIdeal.Result

end
-- ==== Proof.RefValue.lean ====
/-
  The reference program is the specification.  Its last operation contracts the activations with a 4096 × 4096 matrix
  over the column axis; that matrix, read at row `k` and column `n`, is the integer code minus the zero point of the
  column's group, times the group's scale, times the row factor, the column factor and the mask entry.  The two
  reshapes between 4096 × 4096 and 4096 × 64 × 64 only regroup a column `n` as (group `n / 64`, position `n % 64`).
-/
import proofs.«419959_j64330020159887_3_alg».proof.Proof.Gen.ReferenceIdeal.Read
import proofs.«419959_j64330020159887_3_alg».proof.Proof.Spec

noncomputable section

namespace Cert.ReferenceIdeal.RefValue

open Cert.ReferenceIdeal Cert.ReferenceIdeal.Read Cert.QuantLinear
open Idealize.ShloMosaic Idealize.ShloMosaic.ValueIdx

/-- The position of column `n` inside its group. -/
def pos (n : Fin 4096) : Fin 64 := ⟨n.val % 64, Nat.mod_lt _ (by decide)⟩

/-- A column regrouped: (row, column) of the flat matrix is (row, group, position) of the grouped one. -/
theorem regroup (k n : Fin 4096) : idx_main_v6 (ix2 k n) = ix3 k (grp n) (pos n) := by
  funext a; apply Fin.ext
  have hk := k.isLt; have hn := n.isLt
  match a with
  | ⟨0, _⟩ => show (k.val * 4096 + n.val) / 4096 = k.val; omega
  | ⟨1, _⟩ => show (k.val * 4096 + n.val) / 64 % 64 = n.val / 64; omega
  | ⟨2, _⟩ => show (k.val * 4096 + n.val) % 64 = n.val % 64; omega

/-- And back: (row, group, position) is (row, column). -/
theorem ungroup (k n : Fin 4096) : idx_main_v1 (ix3 k (grp n) (pos n)) = ix2 k n := by
  funext a; apply Fin.ext
  have hk := k.isLt; have hn := n.isLt
  match a with
  | ⟨0, _⟩ => show ((k.val * 64 + n.val / 64) * 64 + n.val % 64) / 4096 = k.val; omega
  | ⟨1, _⟩ => show ((k.val * 64 + n.val / 64) * 64 + n.val % 64) % 4096 = n.val; omega

theorem group_entry_z (k : Fin 4096) (g r : Fin 64) : idx_main_v2 (ix3 k g r) = ix3 k g (0 : Fin 1) :=
  funext fun a => Fin.ext (by match a with | ⟨0, _⟩ => rfl | ⟨1, _⟩ => rfl | ⟨2, _⟩ => rfl)
theorem group_entry_s (k : Fin 4096) (g r : Fin 64) : idx_main_v4 (ix3 k g r) = ix3 k g (0 : Fin 1) :=
  funext fun a => Fin.ext (by match a with | ⟨0, _⟩ => rfl | ⟨1, _⟩ => rfl | ⟨2, _⟩ => rfl)
theorem row_entry (k n : Fin 4096) : idx_main_v7 (idx_main_v8 (ix2 k n)) = ix1 k :=
  funext fun a => Fin.ext (by match a with | ⟨0, _⟩ => rfl)
theorem column_entry (k n : Fin 4096) : idx_main_v10 (idx_main_v11 (ix2 k n)) = ix1 n :=
  funext fun a => Fin.ext (by match a with | ⟨0, _⟩ => rfl)

/-- The matrix the reference contracts with, at row `k` and column `n`, is the specification's weight. -/
theorem weight_eq (x1 : (⟨S4096x4096, .i32⟩ : BufTy).Contents (Elt Ideal)) (x2 x3 : (⟨S4096x64x1, .f32⟩ : BufTy).Contents (Elt Ideal))
    (x4 : (⟨S4096x4096, .f32⟩ : BufTy).Contents (Elt Ideal)) (x5 x6 : (⟨S4096, .f32⟩ : BufTy).Contents (Elt Ideal)) (k n : Fin 4096) :
    val_main_v13 (F := Ideal) x1 x2 x3 x4 x5 x6 (ix2 k n) = weight x1 x2 x3 x4 x5 x6 k n := by
  rw [val_main_v13_apply, val_main_v12_apply, val_main_v11_apply, val_main_v10_apply, val_main_v9_apply, val_main_v8_apply,
    val_main_v7_apply, val_main_v6_apply, regroup, val_main_v5_apply, val_main_v4_apply, val_main_v3_apply, val_main_v2_apply,
    val_main_v1_apply, ungroup, val_main_v0_apply, group_entry_z, group_entry_s, row_entry, column_entry]
  rfl

/-- The reference's result is the specification of the layer. -/
theorem result_eq (x0 : (⟨S4x2048x4096, .f32⟩ : BufTy).Contents (Elt Ideal)) (x1 : (⟨S4096x4096, .i32⟩ : BufTy).Contents (Elt Ideal))
    (x2 x3 : (⟨S4096x64x1, .f32⟩ : BufTy).Contents (Elt Ideal)) (x4 : (⟨S4096x4096, .f32⟩ : BufTy).Contents (Elt Ideal))
    (x5 x6 : (⟨S4096, .f32⟩ : BufTy).Contents (Elt Ideal)) :
    val_main_v14 (F := Ideal) x0 x1 x2 x3 x4 x5 x6 = linear x0 (weight x1 x2 x3 x4 x5 x6) := by
  funext i
  obtain ⟨b, s, k, rfl⟩ : ∃ (b : Fin 4) (s : Fin 2048) (k : Fin 4096), i = ix3 b s k := ⟨i 0, i 1, i 2, eq_ix3 i⟩
  rw [val_main_v14_apply]
  show _ = ∑ n : Fin 4096, x0 (ix3 b s n) * weight x1 x2 x3 x4 x5 x6 k n
  refine Finset.sum_congr rfl fun n _ => ?_
  have hl : lidx_main_v14 (ix3 b s k) n = ix3 b s n :=
    funext fun a => Fin.ext (by match a with | ⟨0, _⟩ => rfl | ⟨1, _⟩ => rfl | ⟨2, _⟩ => rfl)
  have hr : ridx_main_v14 (ix3 b s k) n = ix2 k n :=
    funext fun a => Fin.ext (by match a with | ⟨0, _⟩ => rfl | ⟨1, _⟩ => rfl)
  rw [hl, hr, weight_eq]

end Cert.ReferenceIdeal.RefValue

end
-- ==== Proof.lean ====
/-
  The certificate of a group-quantised linear layer: a two-launch kernel against its plain reference, over the
  extended reals.

  Both programs compute `out[b, s, k] = ∑ n, x[b, s, n] * weight[k, n]` with
  `weight[k, n] = ((((q[k, n] - z[k, n / 64]) * s[k, n / 64]) * mu2[k]) * mu1[n]) * mask[k, n]`
  (Proof/Spec.lean).  The reference does it in one pass of host operations (Proof/RefValue.lean).  The kernel first
  builds the weight matrix block by block, spreading each per-group scale and zero point over its 64 columns by a
  product with a one-hot expansion matrix — a sum that collapses to its one non-zero term, infinities included
  (Proof/Weights.lean; the expansion matrix is one-hot because the host's floor division of the lane numbers by 64 is the
  plain quotient, Proof/Boundary.lean) — and then multiplies the activations by it, 128 rows at a time
  (Proof/Product.lean).  No law beyond `x * 0 = 0`, `x * 1 = x` and the re-indexing of the sums joins the two sides, so the
  inputs' finiteness is never used.  The frames are the generated ones; nothing was rewritten by the idealization, so
  the conjunct relating the kernel to its idealization is `True`.
-/
import proofs.«419959_j64330020159887_3_alg».proof.Defs
import proofs.«419959_j64330020159887_3_alg».proof.Proof.Gen.Kernel
import proofs.«419959_j64330020159887_3_alg».proof.Proof.Gen.Kernel.Frame
import proofs.«419959_j64330020159887_3_alg».proof.Proof.Gen.KernelIdeal
import proofs.«419959_j64330020159887_3_alg».proof.Proof.Gen.KernelIdeal.Frame
import proofs.«419959_j64330020159887_3_alg».proof.Proof.Gen.ReferenceIdeal
import proofs.«419959_j64330020159887_3_alg».proof.Proof.Gen.ReferenceIdeal.Run
import proofs.«419959_j64330020159887_3_alg».proof.Proof.Gen.ReferenceIdeal.Read
import proofs.«419959_j64330020159887_3_alg».proof.Proof.Gen.Pre_finite_inputs
import proofs.«419959_j64330020159887_3_alg».proof.Proof.KernelRun
import proofs.«419959_j64330020159887_3_alg».proof.Proof.Result
import proofs.«419959_j64330020159887_3_alg».proof.Proof.RefValue
import Idealize.ShloMosaic.Adequacy
import Idealize.ShloMosaic.Init

noncomputable section

namespace Cert.Proof

open Idealize.ShloMosaic Idealize.ShloMosaic.TcCoe Idealize.SL.Sem Cert.QuantLinear

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the layer's specification of those
    arguments in their result arrays. -/
theorem algebraic : Cert.algebraic_KernelIdeal_ReferenceIdeal := by
  intro m ρ m' ρ' _ hagree
  refine ⟨fun c => linear (m ((c.tc : Thread Cert.KernelIdeal.nD Cert.KernelIdeal.τ).loc Cert.KernelIdeal.main_arg0))
    (weight (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))), ?_, ?_⟩
  · exact (θ_run Cert.KernelIdeal.defs _ _).mono
      (fun r h c => ⟨(h c).1.trans (Cert.KernelIdeal.Result.result_eq m ρ c), (h c).2⟩)
      (Cert.KernelIdeal.Run.run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1,
      (hagree c).2.2.2.2.2.2]
    exact (Cert.ReferenceIdeal.Read.val_main_v14_eq _ _ _ _ _ _ _).trans (Cert.ReferenceIdeal.RefValue.result_eq _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
